-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096x64 .f32) (main_arg4 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S1x4096 : Shape := ⟨2, ![1, 4096]⟩
abbrev S1x64 : Shape := ⟨2, ![1, 64]⟩
abbrev S8192x64 : Shape := ⟨2, ![8192, 64]⟩
abbrev S256x4096 : Shape := ⟨2, ![256, 4096]⟩
abbrev S256x64 : Shape := ⟨2, ![256, 64]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S4096x4096, .bf16⟩
  | .hbm, ⟨6, _⟩ => ⟨S1x4096, .f32⟩
  | .hbm, ⟨7, _⟩ => ⟨S4096x64, .bf16⟩
  | .hbm, ⟨8, _⟩ => ⟨S1x64, .f32⟩
  | .hbm, ⟨9, _⟩ => ⟨S8192x64, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S1x4096, .f32⟩
  | .local _ .vmem, ⟨4, _⟩ => ⟨S4096x64, .bf16⟩
  | .local _ .vmem, ⟨5, _⟩ => ⟨S1x64, .f32⟩
  | .local _ .vmem, ⟨6, _⟩ => ⟨S256x64, .f32⟩
  | .local _ .vmem, ⟨7, _⟩ => ⟨S256x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S4096_S1x4096 : S4096.ShapeCasts S1x4096
  shapeCasts_S64_S1x64 : S64.ShapeCasts S1x64
  inb_S256x4096_S256x4096_0_0 : ∀ a, (![0, 0] : Fin 2 → Nat) a + S256x4096.size a ≤ S256x4096.size a
  h_S256x4096 : 0 < S256x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  reduces_S256x64_S256 : S256x64.Reduces [1] S256
  shapeCasts_S256_S256x1 : S256.ShapeCasts S256x1
  broadcasts_S256x1_S256x64 : S256x1.Broadcasts S256x64
  inb_S256x64_S256x64_0_0 : ∀ a, (![0, 0] : Fin 2 → Nat) a + S256x64.size a ≤ S256x64.size a
  h_S256x64 : 0 < S256x64.numel
  dot_S256x4096_S4096x4096_S256x4096_1_0_0_1_n_n_wf : DotDims.WF S256x4096 S4096x4096 S256x4096 [1] [0] [0] [1] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .bf16 = 32 ∨ (Rect.block (s := S4096x64) S4096x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S8192x64.size a
  hwx0_5 : ∀ i : grid0.Coords, EltTy.bits .f32 = 32 ∨ (Rect.block (s := S8192x64) S256x64.size (cc0_transform_5 i) (hinb0_5 i)).WholeWords (EltTy.packing .f32)

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x64 : Shape := ⟨2, ![4096, 64]⟩
abbrev S64 : Shape := ⟨1, ![64]⟩
abbrev S1x4096 : Shape := ⟨2, ![1, 4096]⟩
abbrev S_ : Shape := ⟨0, ![]⟩
abbrev S8192x64 : Shape := ⟨2, ![8192, 64]⟩
abbrev S1x64 : Shape := ⟨2, ![1, 64]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x64, .f32⟩
  | .hbm, ⟨4, _⟩ => ⟨S64, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x64, .f32⟩
  | .hbm, ⟨29, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x4096_S4096x4096_S8192x4096_1_0_0_1_n_n_wf : DotDims.WF S8192x4096 S4096x4096 S8192x4096 [1] [0] [0] [1] [] []
  dot_S8192x4096_S4096x64_S8192x64_1_0_0_1_n_n_wf : DotDims.WF S8192x4096 S4096x64 S8192x64 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.Gates.lean ====
/-
  The gating network one token at a time, on the extended reals.

  A token is a row `xr` of 4096 features. Its hidden layer is the affine map `xr · W1 + b1` clipped below at
  zero (4096 units); its logits are the affine map `hidden · W2 + b2` of the hidden layer (64 experts); its gates
  are the softmax of the logits taken the numerically stable way: the row's maximum `M` (a fold of `max` from
  −∞ over the 64 logits) is subtracted first, and each `exp (l e − M)` is divided by the sum of all 64 of them.
  `gates` is the whole result array: row `r` of it is the gates of row `r` of `x`, so a row of the result
  depends on that one row of `x` and on all of `W1`, `b1`, `W2`, `b2`.

  Nothing here needs an input to be finite: both programs compute this same function operation by operation, and
  the only laws used to join them are that `max` from −∞ is the identity on the extended reals and that a sum
  or a fold of `max` over a finite index set does not depend on how the set is enumerated.
-/
import Idealize.ShloMosaic.PureOps.Ideal.Laws
import Idealize.ShloMosaic.Lib.ValueIdx

noncomputable section

open scoped BigOperators

namespace Cert.Gates

open Idealize.ShloMosaic Idealize.ShloMosaic.ValueIdx

/-- Hidden unit `j` of one token: the token's features against column `j` of `W1`, plus the bias, clipped below
    at zero (the zero is the f32 word `0x00000000`, the same word in both programs). -/
def hidden (xr : Fin 4096 → EReal) (W1 : Fin 4096 → Fin 4096 → EReal) (b1 : Fin 4096 → EReal) (j : Fin 4096) : EReal :=
  max ((∑ k : Fin 4096, xr k * W1 k j) + b1 j) (Ideal.ofBits .f32 0x00000000#32)

/-- Logit of expert `e` for one token: the hidden layer against column `e` of `W2`, plus the bias. -/
def logit (xr : Fin 4096 → EReal) (W1 : Fin 4096 → Fin 4096 → EReal) (b1 : Fin 4096 → EReal)
    (W2 : Fin 4096 → Fin 64 → EReal) (b2 : Fin 64 → EReal) (e : Fin 64) : EReal :=
  (∑ j : Fin 4096, hidden xr W1 b1 j * W2 j e) + b2 e

/-- The largest of a token's 64 logits: the fold of `max` from −∞ (the f32 word `0xFF800000`). -/
def rowMax (l : Fin 64 → EReal) : EReal :=
  (Finset.univ : Finset (Fin 64)).fold max (Ideal.ofBits .f32 0xFF800000#32) l

/-- The softmax of 64 logits at expert `e`, with the row's maximum subtracted before the exponential. -/
def softmax (l : Fin 64 → EReal) (e : Fin 64) : EReal :=
  Ideal.div (Ideal.exp (l e - rowMax l)) (∑ e' : Fin 64, Ideal.exp (l e' - rowMax l))

/-- The gate of expert `e` for one token. -/
def gate (xr : Fin 4096 → EReal) (W1 : Fin 4096 → Fin 4096 → EReal) (b1 : Fin 4096 → EReal)
    (W2 : Fin 4096 → Fin 64 → EReal) (b2 : Fin 64 → EReal) (e : Fin 64) : EReal :=
  softmax (logit xr W1 b1 W2 b2) e

/-- The whole result: entry `(r, e)` is the gate of expert `e` for row `r` of `x`. -/
def gates (x : (⟨2, ![8192, 4096]⟩ : Shape).Idx → EReal) (W1 : (⟨2, ![4096, 4096]⟩ : Shape).Idx → EReal)
    (b1 : (⟨1, ![4096]⟩ : Shape).Idx → EReal) (W2 : (⟨2, ![4096, 64]⟩ : Shape).Idx → EReal)
    (b2 : (⟨1, ![64]⟩ : Shape).Idx → EReal) : (⟨2, ![8192, 64]⟩ : Shape).Idx → EReal :=
  fun i => gate (fun k => x (ix2 (⟨(i 0).val, idx2_lt0 i⟩ : Fin 8192) k)) (fun k j => W1 (ix2 k j)) (fun j => b1 (ix1 j))
    (fun j e => W2 (ix2 j e)) (fun e => b2 (ix1 e)) (⟨(i 1).val, idx2_lt1 i⟩ : Fin 64)

/-- At the index built from a row and an expert, `gates` is that row's gate for that expert. -/
theorem gates_ix2 (x : (⟨2, ![8192, 4096]⟩ : Shape).Idx → EReal) (W1 : (⟨2, ![4096, 4096]⟩ : Shape).Idx → EReal)
    (b1 : (⟨1, ![4096]⟩ : Shape).Idx → EReal) (W2 : (⟨2, ![4096, 64]⟩ : Shape).Idx → EReal)
    (b2 : (⟨1, ![64]⟩ : Shape).Idx → EReal) (r : Fin 8192) (e : Fin 64) :
    gates x W1 b1 W2 b2 (ix2 r e)
      = gate (fun k => x (ix2 r k)) (fun k j => W1 (ix2 k j)) (fun j => b1 (ix1 j)) (fun j e => W2 (ix2 j e)) (fun e => b2 (ix1 e)) e :=
  rfl

/-- On the extended reals −∞ is the least element, so taking the maximum with it changes nothing. -/
theorem max_negInf (y : EReal) : max (Ideal.ofBits .f32 0xFF800000#32) y = y := by
  simp [Ideal.ofBits, Ideal.ieee]

end Cert.Gates

end
-- ==== Proof.LibKeepdims.lean ====
/-
  Two readings at an index that a row reduction with kept dimensions meets, for any element type and any extents.

  A reduction over the columns of an `[a, b]` array leaves one value per row, an `[a]` vector. To use it against the
  `[a, b]` array again (subtract a row's maximum, divide by a row's sum) it is first cast to one column, `[a, 1]`,
  and the column is then repeated across the `b` columns. Read at `(p, q)` the result is the vector's entry `p`,
  whatever `q` is (`column_apply`). And the index that a reduction over axis 1 reads at reduced index `p` and
  coordinate `k` of the dropped axis is `(p, k)` (`lift_axis1`).
-/
import Idealize.ShloMosaic.Lib.Pipeline.Value
import Idealize.ShloMosaic.Lib.ValueIdx
import Idealize.ShloMosaic.PureOps.Reduce

noncomputable section

namespace Idealize.ShloMosaic.Keepdims

open Idealize.ShloMosaic Idealize.ShloMosaic.ValueIdx

variable {α : Type}

/-- An `[a]` vector cast to the column `[a, 1]` reads, at `(p, u)`, its entry `p`, whatever the unit coordinate. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` repeated across `b` columns reads, at `(p, q)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A per-row value with its dimension kept: the `[a]` vector cast to a column and repeated across `b` columns reads,
    at `(p, q)`, the vector's entry `p`. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) := by
  rw [broadcastTo_a1_ab_apply, shapeCast_a_a1_apply]

/-- A reduction of an `[a, b]` array over its columns reads, at row `p` and column coordinate `k`, the entry `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims

end
-- ==== Proof.RefGates.lean ====
/-
  The reference program computes `Cert.Gates.gates`.

  Its last stage is read here index by index, a row `r` and an expert `e` at a time, through the stages before it:
  the first matrix product plus the bias, clipped below at zero, is the token's hidden layer; the second product plus
  its bias is the token's logits; the reduction of the logits over the experts with a maximum, then the maximum of
  that with −∞ (which changes nothing, −∞ being the least extended real), is the row's largest logit; the
  exponential of the difference, its sum over the experts (started from the zero word, which adds nothing) and the
  quotient are the softmax. The one stage not read by an index lemma of its own, the maximum over the experts, is
  the fold of `max` from −∞ over the row's 64 logits.
-/
import proofs.«142755_g21114059227169_cont_8to1_1984_6_alg».proof.Proof.Gen.ReferenceIdeal.Read
import proofs.«142755_g21114059227169_cont_8to1_1984_6_alg».proof.Proof.Gates
import proofs.«142755_g21114059227169_cont_8to1_1984_6_alg».proof.Proof.LibKeepdims
import Idealize.ShloMosaic.PureOps.Reduce
import Idealize.ShloMosaic.PureOps.Ideal.Laws

noncomputable section

open scoped BigOperators

namespace Cert.ReferenceIdeal.RefGates

open Cert.ReferenceIdeal Cert.ReferenceIdeal.Gen Cert.ReferenceIdeal.Read Idealize.ShloMosaic Idealize.ShloMosaic.TcCoe
open Idealize.ShloMosaic.ValueIdx Idealize.ShloMosaic.Keepdims Cert.Gates

variable (x0 : (⟨S8192x4096, .f32⟩ : BufTy).Contents (Elt Ideal)) (x1 : (⟨S4096x4096, .f32⟩ : BufTy).Contents (Elt Ideal))
  (x2 : (⟨S4096, .f32⟩ : BufTy).Contents (Elt Ideal)) (x3 : (⟨S4096x64, .f32⟩ : BufTy).Contents (Elt Ideal))
  (x4 : (⟨S64, .f32⟩ : BufTy).Contents (Elt Ideal))

/-! ## The stages' index maps at an index given by its coordinates -/

/-- The first product's left operand at `(r, j)` and contraction coordinate `k` is read at `(r, k)`. -/
theorem lidx0 (r : Fin 8192) (j k : Fin 4096) : lidx_main_v0 (ix2 r j) k = ix2 r k :=
  funext fun a => match a with | ⟨0, _⟩ => rfl | ⟨1, _⟩ => rfl
/-- Its right operand is read at `(k, j)`. -/
theorem ridx0 (r : Fin 8192) (j k : Fin 4096) : ridx_main_v0 (ix2 r j) k = ix2 k j :=
  funext fun a => match a with | ⟨0, _⟩ => rfl | ⟨1, _⟩ => rfl
/-- The first bias, made a row and repeated over the tokens, is read at `j`. -/
theorem idx12 (r : Fin 8192) (j : Fin 4096) : idx_main_v1 (idx_main_v2 (ix2 r j)) = ix1 j :=
  funext fun a => match a with | ⟨0, _⟩ => rfl
/-- The second product's left operand at `(r, e)` and contraction coordinate `j` is read at `(r, j)`. -/
theorem lidx5 (r : Fin 8192) (e : Fin 64) (j : Fin 4096) : lidx_main_v5 (ix2 r e) j = ix2 r j :=
  funext fun a => match a with | ⟨0, _⟩ => rfl | ⟨1, _⟩ => rfl
/-- Its right operand is read at `(j, e)`. -/
theorem ridx5 (r : Fin 8192) (e : Fin 64) (j : Fin 4096) : ridx_main_v5 (ix2 r e) j = ix2 j e :=
  funext fun a => match a with | ⟨0, _⟩ => rfl | ⟨1, _⟩ => rfl
/-- The second bias, made a row and repeated over the tokens, is read at `e`. -/
theorem idx67 (r : Fin 8192) (e : Fin 64) : idx_main_v6 (idx_main_v7 (ix2 r e)) = ix1 e :=
  funext fun a => match a with | ⟨0, _⟩ => rfl
/-- The row maximum, made a column and repeated over the experts, is read at `r`. -/
theorem idx1213 (r : Fin 8192) (e : Fin 64) : idx_main_v12 (idx_main_v13 (ix2 r e)) = ix1 r :=
  funext fun a => match a with | ⟨0, _⟩ => rfl
/-- The row sum's operand at `r` and expert coordinate `k` is read at `(r, k)`. -/
theorem idx16 (r : Fin 8192) (k : Fin 64) : idx_main_v16 (ix1 r) k = ix2 r k :=
  funext fun a => match a with | ⟨0, _⟩ => rfl | ⟨1, _⟩ => rfl
/-- The row sum, made a column and repeated over the experts, is read at `r`. -/
theorem idx1718 (r : Fin 8192) (e : Fin 64) : idx_main_v17 (idx_main_v18 (ix2 r e)) = ix1 r :=
  funext fun a => match a with | ⟨0, _⟩ => rfl

/-! ## The stages -/

/-- The clipped first layer at `(r, j)` is hidden unit `j` of row `r`. -/
theorem hidden_eq (r : Fin 8192) (j : Fin 4096) :
    val_main_v4 (F := Ideal) x0 x1 x2 (ix2 r j)
      = hidden (fun k => x0 (ix2 r k)) (fun k j => x1 (ix2 k j)) (fun j => x2 (ix1 j)) j := by
  rw [val_main_v4_apply, val_main_v3_apply, val_main_v0_apply, val_main_v2_apply, val_main_v1_apply,
    val_main_call0_v0_apply, val_main_call0_cst_apply]
  simp only [lidx0, ridx0, idx12]
  rfl

/-- The second layer at `(r, e)` is logit `e` of row `r`. -/
theorem logit_eq (r : Fin 8192) (e : Fin 64) :
    val_main_v8 (F := Ideal) x0 x1 x2 x3 x4 (ix2 r e)
      = logit (fun k => x0 (ix2 r k)) (fun k j => x1 (ix2 k j)) (fun j => x2 (ix1 j)) (fun j e => x3 (ix2 j e)) (fun e => x4 (ix1 e)) e := by
  rw [val_main_v8_apply, val_main_v5_apply, val_main_v7_apply, val_main_v6_apply]
  simp only [lidx5, ridx5, idx67, hidden_eq]
  rfl

/-- The logits are reduced over the experts. -/
theorem reduces_experts : S8192x64.Reduces [1] S8192 := by decide

/-- The maximum over the experts, then the maximum with −∞, at row `r`: the row's largest logit. -/
theorem max_eq (r : Fin 8192) :
    val_main_v11 (F := Ideal) x0 x1 x2 x3 x4 (ix1 r)
      = rowMax (logit (fun k => x0 (ix2 r k)) (fun k j => x1 (ix2 k j)) (fun j => x2 (ix1 j)) (fun j e => x3 (ix2 j e)) (fun e => x4 (ix1 e))) := by
  rw [val_main_v11_apply, val_main_v10_apply, val_main_cst_0_apply]
  show max (Ideal.ofBits .f32 0xFF800000#32) (val_main_v9 (F := Ideal) x0 x1 x2 x3 x4 (ix1 r)) = _
  rw [max_negInf]
  unfold val_main_v9
  rw [Host.reduce_eq_fold_single FloatOps.maximumf _ _ reducesTo_S8192x64_S8192_d1 reduces_experts h_S_]
  have hf : (val_main_v8 (F := Ideal) x0 x1 x2 x3 x4 ∘ reduces_experts.lift (ix1 r))
      = fun k : Fin 64 => logit (fun k => x0 (ix2 r k)) (fun k j => x1 (ix2 k j)) (fun j => x2 (ix1 j)) (fun j e => x3 (ix2 j e)) (fun e => x4 (ix1 e)) k :=
    funext fun k => (congrArg (val_main_v8 (F := Ideal) x0 x1 x2 x3 x4) (lift_axis1 reduces_experts r k)).trans (logit_eq x0 x1 x2 x3 x4 r _)
  exact congrArg (fun f => Finset.fold max (Ideal.ofBits .f32 0xFF800000#32) f (Finset.univ : Finset (Fin 64))) hf

/-- The exponential stage at `(r, e)`. -/
theorem exp_eq (r : Fin 8192) (e : Fin 64) :
    val_main_v15 (F := Ideal) x0 x1 x2 x3 x4 (ix2 r e)
      = Ideal.exp (logit (fun k => x0 (ix2 r k)) (fun k j => x1 (ix2 k j)) (fun j => x2 (ix1 j)) (fun j e => x3 (ix2 j e)) (fun e => x4 (ix1 e)) e
          - rowMax (logit (fun k => x0 (ix2 r k)) (fun k j => x1 (ix2 k j)) (fun j => x2 (ix1 j)) (fun j e => x3 (ix2 j e)) (fun e => x4 (ix1 e)))) := by
  rw [val_main_v15_apply, val_main_v14_apply, val_main_v13_apply, val_main_v12_apply, idx1213, max_eq, logit_eq]
  rfl

/-- The sum of the exponentials over the experts at row `r`. -/
theorem sum_eq (r : Fin 8192) :
    val_main_v16 (F := Ideal) x0 x1 x2 x3 x4 (ix1 r)
      = ∑ e' : Fin 64, Ideal.exp (logit (fun k => x0 (ix2 r k)) (fun k j => x1 (ix2 k j)) (fun j => x2 (ix1 j)) (fun j e => x3 (ix2 j e)) (fun e => x4 (ix1 e)) e'
          - rowMax (logit (fun k => x0 (ix2 r k)) (fun k j => x1 (ix2 k j)) (fun j => x2 (ix1 j)) (fun j e => x3 (ix2 j e)) (fun e => x4 (ix1 e)))) := by
  rw [val_main_v16_apply, val_main_cst_1_apply]
  simp only [idx16, exp_eq]
  show Ideal.ofBits .f32 0x00000000#32 + _ = _
  rw [Ideal.ofBits_zero_f32, zero_add]

/-- The reference's result is `gates` of its arguments. -/
theorem ref_eq : val_main_v19 (F := Ideal) x0 x1 x2 x3 x4 = gates x0 x1 x2 x3 x4 := by
  funext i
  obtain ⟨r, e, rfl⟩ : ∃ (r : Fin 8192) (e : Fin 64), i = ix2 r e := ⟨i 0, i 1, eq_ix2 i⟩
  rw [val_main_v19_apply, val_main_v18_apply, val_main_v17_apply, idx1718, sum_eq, exp_eq, gates_ix2]
  rfl

end Cert.ReferenceIdeal.RefGates

end
-- ==== Proof.KernelRow.lean ====
/-
  What the kernel's body stores, read at one entry of the block.

  The body loads a block of 256 tokens (`v0`, all 4096 features of each), the two weight matrices (`v2`, `v12`) and
  the two biases as one-row arrays (`v5`, `v15`), and stores one 256 × 64 vector. That vector is built in three
  layers, named here with the body's own operations: `hiddenVec` (the first product into a zero accumulator, plus the
  bias row repeated over the tokens, clipped below at zero), `logitVec` (the second product of the hidden layer, plus
  its bias row) and `softmaxVec` (the row maxima kept as a column and subtracted, the exponential, the row sums kept
  as a column, the quotient). Read at token `p` of the block and expert `q`, each layer is the corresponding
  function of `Cert.Gates` of the token's row: a product into the zero accumulator is the sum over the contraction
  coordinate, a reduction over the experts is the sum or the fold of `max` over the 64 coordinates, and a kept
  dimension reads the row's value at every expert. The changes of float format in the body are the identity here.
-/
import proofs.«142755_g21114059227169_cont_8to1_1984_6_alg».proof.Proof.Gen.KernelIdeal.Skeleton
import proofs.«142755_g21114059227169_cont_8to1_1984_6_alg».proof.Proof.Gates
import proofs.«142755_g21114059227169_cont_8to1_1984_6_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.KernelRow

open Cert.KernelIdeal Cert.KernelIdeal.Gen Idealize.ShloMosaic Idealize.ShloMosaic.TcCoe
open Idealize.ShloMosaic.ValueIdx Idealize.ShloMosaic.Keepdims Cert.Gates

/-! ## The two matrix products at an entry -/

theorem lhs_first_0 (i : S256x4096.Idx) (q : dot_S256x4096_S4096x4096_S256x4096_1_0_0_1_n_n.contr.Idx) :
    (dot_S256x4096_S4096x4096_S256x4096_1_0_0_1_n_n.lhsIdx i q 0).val = (i 0).val := by
  unfold DotDims.lhsIdx
  rw [dif_neg (show ¬(0 : Fin S256x4096.rank) ∈ dot_S256x4096_S4096x4096_S256x4096_1_0_0_1_n_n.lhsBatch by decide), dif_pos (show (0 : Fin S256x4096.rank) ∈ dot_S256x4096_S4096x4096_S256x4096_1_0_0_1_n_n.lhsNonContracting by decide)]
  rfl
theorem lhs_first_1 (i : S256x4096.Idx) (q : dot_S256x4096_S4096x4096_S256x4096_1_0_0_1_n_n.contr.Idx) :
    (dot_S256x4096_S4096x4096_S256x4096_1_0_0_1_n_n.lhsIdx i q 1).val = (q ⟨0, by decide⟩).val :=
  dot_S256x4096_S4096x4096_S256x4096_1_0_0_1_n_n.lhsIdx_val_of_single rfl i q
theorem rhs_first_0 (i : S256x4096.Idx) (q : dot_S256x4096_S4096x4096_S256x4096_1_0_0_1_n_n.contr.Idx) :
    (dot_S256x4096_S4096x4096_S256x4096_1_0_0_1_n_n.rhsIdx i q 0).val = (q ⟨0, by decide⟩).val :=
  dot_S256x4096_S4096x4096_S256x4096_1_0_0_1_n_n.rhsIdx_val_of_single rfl i q
theorem rhs_first_1 (i : S256x4096.Idx) (q : dot_S256x4096_S4096x4096_S256x4096_1_0_0_1_n_n.contr.Idx) :
    (dot_S256x4096_S4096x4096_S256x4096_1_0_0_1_n_n.rhsIdx i q 1).val = (i 1).val := by
  unfold DotDims.rhsIdx
  rw [dif_neg (show ¬(1 : Fin S4096x4096.rank) ∈ dot_S256x4096_S4096x4096_S256x4096_1_0_0_1_n_n.rhsBatch by decide), dif_pos (show (1 : Fin S4096x4096.rank) ∈ dot_S256x4096_S4096x4096_S256x4096_1_0_0_1_n_n.rhsNonContracting by decide)]
  rfl

/-- The first product into the zero accumulator, at token `p` and hidden unit `j`: the sum over the 4096 features of
    the token's feature times the weight. -/
theorem first_product_apply (u : FVec Ideal S256x4096 .bf16) (w : FVec Ideal S4096x4096 .bf16) (p : Fin 256) (j : Fin 4096) :
    matmul dot_S256x4096_S4096x4096_S256x4096_1_0_0_1_n_n none u w (constant (F := Ideal) S256x4096 .f32 0x00000000#32) (ix2 p j)
      = ∑ k : Fin 4096, u (ix2 p k) * w (ix2 k j) := by
  simp only [matmul]
  rw [Ideal.matmul_constant_zero_apply, ← Equiv.sum_comp (ValueIdx.contrEquiv1 dot_S256x4096_S4096x4096_S256x4096_1_0_0_1_n_n 4096 rfl rfl).symm]
  refine Finset.sum_congr rfl fun k _ => ?_
  have hk := ValueIdx.contrEquiv1_symm_val dot_S256x4096_S4096x4096_S256x4096_1_0_0_1_n_n 4096 rfl rfl k
  have el : dot_S256x4096_S4096x4096_S256x4096_1_0_0_1_n_n.lhsIdx (ix2 p j) ((ValueIdx.contrEquiv1 dot_S256x4096_S4096x4096_S256x4096_1_0_0_1_n_n 4096 rfl rfl).symm k) = ix2 p k := funext fun a => Fin.ext (by
    match a with
    | ⟨0, _⟩ => exact lhs_first_0 _ _
    | ⟨1, _⟩ => exact (lhs_first_1 _ _).trans hk)
  have er : dot_S256x4096_S4096x4096_S256x4096_1_0_0_1_n_n.rhsIdx (ix2 p j) ((ValueIdx.contrEquiv1 dot_S256x4096_S4096x4096_S256x4096_1_0_0_1_n_n 4096 rfl rfl).symm k) = ix2 k j := funext fun a => Fin.ext (by
    match a with
    | ⟨0, _⟩ => exact (rhs_first_0 _ _).trans hk
    | ⟨1, _⟩ => exact rhs_first_1 _ _)
  rw [el, er]

theorem lhs_second_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem lhs_second_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rhs_second_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rhs_second_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The second product into the zero accumulator, at token `p` and expert `e`: the sum over the 4096 hidden units. -/
theorem second_product_apply (u : FVec Ideal S256x4096 .bf16) (w : FVec Ideal S4096x64 .bf16) (p : Fin 256) (e : Fin 64) :
    matmul dot_S256x4096_S4096x64_S256x64_1_0_0_1_n_n none u w (constant (F := Ideal) S256x64 .f32 0x00000000#32) (ix2 p e)
      = ∑ j : Fin 4096, u (ix2 p j) * w (ix2 j e) := by
  simp only [matmul]
  rw [Ideal.matmul_constant_zero_apply, ← Equiv.sum_comp (ValueIdx.contrEquiv1 dot_S256x4096_S4096x64_S256x64_1_0_0_1_n_n 4096 rfl rfl).symm]
  refine Finset.sum_congr rfl fun k _ => ?_
  have hk := ValueIdx.contrEquiv1_symm_val dot_S256x4096_S4096x64_S256x64_1_0_0_1_n_n 4096 rfl rfl k
  have el : dot_S256x4096_S4096x64_S256x64_1_0_0_1_n_n.lhsIdx (ix2 p e) ((ValueIdx.contrEquiv1 dot_S256x4096_S4096x64_S256x64_1_0_0_1_n_n 4096 rfl rfl).symm k) = ix2 p k := funext fun a => Fin.ext (by
    match a with
    | ⟨0, _⟩ => exact lhs_second_0 _ _
    | ⟨1, _⟩ => exact (lhs_second_1 _ _).trans hk)
  have er : dot_S256x4096_S4096x64_S256x64_1_0_0_1_n_n.rhsIdx (ix2 p e) ((ValueIdx.contrEquiv1 dot_S256x4096_S4096x64_S256x64_1_0_0_1_n_n 4096 rfl rfl).symm k) = ix2 k e := funext fun a => Fin.ext (by
    match a with
    | ⟨0, _⟩ => exact (rhs_second_0 _ _).trans hk
    | ⟨1, _⟩ => exact rhs_second_1 _ _)
  rw [el, er]

/-! ## The three layers of the stored vector -/

/-- The hidden layer of the block's 256 tokens, with the body's operations. -/
def hiddenVec (v0 : Vec Ideal S256x4096 .f32) (v2 : Vec Ideal S4096x4096 .bf16) (v5 : Vec Ideal S1x4096 .f32) : FVec Ideal S256x4096 .f32 :=
  maximumf
    (addf
      (matmul dot_S256x4096_S4096x4096_S256x4096_1_0_0_1_n_n none (truncf .bf16 v0 bitsLt_bf16_f32 : FVec Ideal S256x4096 .bf16)
        (shapeCast S4096x4096 v2 shapeCasts_S4096x4096_S4096x4096 : FVec Ideal S4096x4096 .bf16)
        (constant S256x4096 .f32 0x00000000#32))
      (broadcastTo S256x4096 (shapeCast S1x4096 v5 shapeCasts_S1x4096_S1x4096 : FVec Ideal S1x4096 .f32) broadcasts_S1x4096_S256x4096))
    (broadcast S256x4096 (Scalar.ofBits .f32 0x00000000#32 : Ideal .f32))

/-- At token `p` and unit `j` it is hidden unit `j` of the token's row. -/
theorem hiddenVec_apply (v0 : Vec Ideal S256x4096 .f32) (v2 : Vec Ideal S4096x4096 .bf16) (v5 : Vec Ideal S1x4096 .f32)
    (p : Fin 256) (j : Fin 4096) :
    hiddenVec v0 v2 v5 (ix2 p j)
      = hidden (fun k => v0 (ix2 p k)) (fun k j => v2 (ix2 k j)) (fun j => v5 (ix2 (0 : Fin 1) j)) j := by
  unfold hiddenVec Cert.Gates.hidden
  rw [maximumf_apply, addf_apply, first_product_apply, broadcastTo_1b_ab_apply, shapeCast_self, shapeCast_self]
  rfl

/-- The logits of the block's 256 tokens, with the body's operations. -/
def logitVec (v0 : Vec Ideal S256x4096 .f32) (v2 : Vec Ideal S4096x4096 .bf16) (v5 : Vec Ideal S1x4096 .f32)
    (v12 : Vec Ideal S4096x64 .bf16) (v15 : Vec Ideal S1x64 .f32) : FVec Ideal S256x64 .f32 :=
  addf
    (matmul dot_S256x4096_S4096x64_S256x64_1_0_0_1_n_n none (truncf .bf16 (hiddenVec v0 v2 v5) bitsLt_bf16_f32 : FVec Ideal S256x4096 .bf16)
      (shapeCast S4096x64 v12 shapeCasts_S4096x64_S4096x64 : FVec Ideal S4096x64 .bf16)
      (constant S256x64 .f32 0x00000000#32))
    (broadcastTo S256x64 (shapeCast S1x64 v15 shapeCasts_S1x64_S1x64 : FVec Ideal S1x64 .f32) broadcasts_S1x64_S256x64)

/-- At token `p` and expert `e` it is logit `e` of the token's row. -/
theorem logitVec_apply (v0 : Vec Ideal S256x4096 .f32) (v2 : Vec Ideal S4096x4096 .bf16) (v5 : Vec Ideal S1x4096 .f32)
    (v12 : Vec Ideal S4096x64 .bf16) (v15 : Vec Ideal S1x64 .f32) (p : Fin 256) (e : Fin 64) :
    logitVec v0 v2 v5 v12 v15 (ix2 p e)
      = logit (fun k => v0 (ix2 p k)) (fun k j => v2 (ix2 k j)) (fun j => v5 (ix2 (0 : Fin 1) j))
          (fun j e => v12 (ix2 j e)) (fun e => v15 (ix2 (0 : Fin 1) e)) e := by
  unfold logitVec Cert.Gates.logit
  rw [addf_apply, second_product_apply, broadcastTo_1b_ab_apply, shapeCast_self, shapeCast_self]
  simp only [truncf_apply, hiddenVec_apply]

/-- The row maxima of a 256 × 64 vector, kept as a column and repeated over the experts. -/
def rowMaxVec (l : FVec Ideal S256x64 .f32) : FVec Ideal S256x64 .f32 :=
  broadcastTo S256x64
    (shapeCast S256x1 (multiReduction .maximumf [1] S256 l 0xFF800000#32 reduces_S256x64_S256 (.inl rfl) rfl) shapeCasts_S256_S256x1)
    broadcasts_S256x1_S256x64

/-- At `(p, e)` it is the largest entry of row `p`. -/
theorem rowMaxVec_apply (l : FVec Ideal S256x64 .f32) (p : Fin 256) (e : Fin 64) :
    rowMaxVec l (ix2 p e) = rowMax (fun e => l (ix2 p e)) := by
  unfold rowMaxVec Cert.Gates.rowMax
  rw [column_apply]
  refine (Ideal.multiReduction_maximumf_single l 0xFF800000#32 reduces_S256x64_S256 (.inl rfl) rfl (ix1 p)).trans ?_
  have hf : (l ∘ reduces_S256x64_S256.lift (ix1 p)) = fun k : Fin 64 => l (ix2 p k) :=
    funext fun k => congrArg l (lift_axis1 reduces_S256x64_S256 p k)
  exact congrArg (fun f => Finset.fold max (Ideal.ofBits .f32 0xFF800000#32) f (Finset.univ : Finset (Fin 64))) hf

/-- The row sums of a 256 × 64 vector, kept as a column and repeated over the experts. -/
def rowSumVec (v : FVec Ideal S256x64 .f32) : FVec Ideal S256x64 .f32 :=
  broadcastTo S256x64
    (shapeCast S256x1 (multiReduction .add [1] S256 v 0x00000000#32 reduces_S256x64_S256 (.inl rfl) rfl) shapeCasts_S256_S256x1)
    broadcasts_S256x1_S256x64

/-- At `(p, e)` it is the sum of row `p`. -/
theorem rowSumVec_apply (v : FVec Ideal S256x64 .f32) (p : Fin 256) (e : Fin 64) :
    rowSumVec v (ix2 p e) = ∑ k : Fin 64, v (ix2 p k) := by
  unfold rowSumVec
  rw [column_apply]
  refine (Ideal.multiReduction_add_single v 0x00000000#32 reduces_S256x64_S256 (.inl rfl) rfl (ix1 p)).trans ?_
  exact Finset.sum_congr rfl fun k _ => congrArg v (lift_axis1 reduces_S256x64_S256 p k)

/-- The softmax of each row of a 256 × 64 vector, with the body's operations. -/
def softmaxVec (l : FVec Ideal S256x64 .f32) : FVec Ideal S256x64 .f32 :=
  divf (exp (subf l (rowMaxVec l))) (rowSumVec (exp (subf l (rowMaxVec l))))

/-- At `(p, e)` it is the softmax of row `p` at expert `e`. -/
theorem softmaxVec_apply (l : FVec Ideal S256x64 .f32) (p : Fin 256) (e : Fin 64) :
    softmaxVec l (ix2 p e) = softmax (fun e => l (ix2 p e)) e := by
  unfold softmaxVec Cert.Gates.softmax
  rw [divf_apply, rowSumVec_apply]
  show Ideal.div (Ideal.exp (l (ix2 p e) - rowMaxVec l (ix2 p e))) (∑ k : Fin 64, Ideal.exp (l (ix2 p k) - rowMaxVec l (ix2 p k))) = _
  simp only [rowMaxVec_apply]

/-! ## The stored vector -/

set_option maxRecDepth 65536 in
/-- The body's stored value is the softmax of the logits of the hidden layer: the same operations, grouped. -/
theorem payload_eq (v0 : Vec Ideal S256x4096 .f32) (v2 : Vec Ideal S4096x4096 .bf16) (v5 : Vec Ideal S1x4096 .f32)
    (v12 : Vec Ideal S4096x64 .bf16) (v15 : Vec Ideal S1x64 .f32) :
    k0_pay1 (F := Ideal) v0 v2 v5 v12 v15 = softmaxVec (logitVec v0 v2 v5 v12 v15) := rfl

/-- At token `p` of the block and expert `e` the stored value is the gate of expert `e` for that token's row. -/
theorem payload_apply (v0 : Vec Ideal S256x4096 .f32) (v2 : Vec Ideal S4096x4096 .bf16) (v5 : Vec Ideal S1x4096 .f32)
    (v12 : Vec Ideal S4096x64 .bf16) (v15 : Vec Ideal S1x64 .f32) (p : Fin 256) (e : Fin 64) :
    k0_pay1 (F := Ideal) v0 v2 v5 v12 v15 (ix2 p e)
      = gate (fun k => v0 (ix2 p k)) (fun k j => v2 (ix2 k j)) (fun j => v5 (ix2 (0 : Fin 1) j))
          (fun j e => v12 (ix2 j e)) (fun e => v15 (ix2 (0 : Fin 1) e)) e := by
  rw [payload_eq, softmaxVec_apply]
  unfold Cert.Gates.gate
  simp only [logitVec_apply]

end Cert.KernelIdeal.KernelRow

end
-- ==== Proof.KernelGates.lean ====
/-
  From the blocks to the array: after the kernel's run its result array is `Cert.Gates.gates` of its arguments.

  The grid has 32 points. Point `t` stages rows `256·t … 256·t + 255` of the tokens (all 4096 features), the whole
  of both weight matrices and of both bias rows (their block index is `(0, 0)` at every point), and writes back rows
  `256·t … 256·t + 255` of the result (all 64 experts). The weight arrays the region finds are the arguments with
  their float format changed, which changes no value here; the bias rows it finds are the bias vectors cast to one
  row. So entry `(p, e)` of what point `t` writes back is the gate of expert `e` for row `256·t + p` of the tokens,
  which is entry `(256·t + p, e)` of `gates`: the point writes back its block of `gates`. Every row `r` of the result
  lies in the block of point `r / 256`, so the 32 blocks cover the array and it ends holding `gates`.
-/
import proofs.«142755_g21114059227169_cont_8to1_1984_6_alg».proof.Proof.Gen.KernelIdeal.Value
import proofs.«142755_g21114059227169_cont_8to1_1984_6_alg».proof.Proof.KernelRow
import Idealize.ShloMosaic.Lib.ValueLayout
import Idealize.ShloMosaic.Lib.StableHlo.Run

noncomputable section

namespace Cert.KernelIdeal.KernelGates

open Cert.KernelIdeal Cert.KernelIdeal.Gen Idealize.ShloMosaic Idealize.ShloMosaic.TcCoe Idealize.SL.Sem
open Idealize.ShloMosaic.Pipeline (Dat)
open Idealize.ShloMosaic.ValueIdx Cert.Gates

variable (m : (ℓ : Loc nD τ sig) → Buf (Elt Ideal) ℓ) (ρ : Dev nD → PrngReg)

/-! ## One stored entry against one entry of `gates` -/

/-- If row `p` of the loaded token block is row `r` of the token array, the loaded weights are the weight arrays and
    the loaded bias rows are the bias vectors, then the stored value at `(p, e)` is `gates` at `(r, e)`. -/
theorem entry_eq (x0 : Vec Ideal S256x4096 .f32) (x1 : Vec Ideal S4096x4096 .bf16) (x2 : Vec Ideal S1x4096 .f32)
    (x3 : Vec Ideal S4096x64 .bf16) (x4 : Vec Ideal S1x64 .f32)
    (X : S8192x4096.Idx → EReal) (W1 : S4096x4096.Idx → EReal) (b1 : S4096.Idx → EReal) (W2 : S4096x64.Idx → EReal) (b2 : S64.Idx → EReal)
    (p : Fin 256) (r : Fin 8192) (e : Fin 64)
    (h0 : ∀ k : Fin 4096, x0 (ix2 p k) = X (ix2 r k))
    (h1 : ∀ k j : Fin 4096, x1 (ix2 k j) = W1 (ix2 k j))
    (h2 : ∀ j : Fin 4096, x2 (ix2 (0 : Fin 1) j) = b1 (ix1 j))
    (h3 : ∀ (j : Fin 4096) (e : Fin 64), x3 (ix2 j e) = W2 (ix2 j e))
    (h4 : ∀ e : Fin 64, x4 (ix2 (0 : Fin 1) e) = b2 (ix1 e)) :
    k0_pay1 (F := Ideal) x0 x1 x2 x3 x4 (ix2 p e) = gates X W1 b1 W2 b2 (ix2 r e) := by
  rw [KernelRow.payload_apply, gates_ix2]
  simp only [h0, h1, h2, h3, h4]

/-! ## The arrays the region finds -/

/-- The first weight array as staged is the argument with its float format changed, which changes no entry. -/
theorem staged_W1 (c : Dev nD) (i : S4096x4096.Idx) : V m c main_v0 i = (m ((c : Thread nD τ).loc main_arg1)) i := by
  have e : (V m c main_v0 : S4096x4096.Idx → EReal)
      = (truncf .bf16 ((m ((c : Thread nD τ).loc main_arg1)) : FVec Ideal S4096x4096 .f32) bitsLt_bf16_f32 : FVec Ideal S4096x4096 .bf16) := by
    dsimp only [Gen.V, Gen.hostOps0]; after_results
  exact congrFun e i

/-- The first bias as staged: the argument cast to one row. -/
theorem staged_b1 (c : Dev nD) :
    (V m c main_v1 : S1x4096.Idx → EReal) = shapeCast S1x4096 (m ((c : Thread nD τ).loc main_arg2)) shapeCasts_S4096_S1x4096 := by
  dsimp only [Gen.V, Gen.hostOps0]; after_results; rfl

/-- The second weight array as staged is the argument with its float format changed, which changes no entry. -/
theorem staged_W2 (c : Dev nD) (i : S4096x64.Idx) : V m c main_v2 i = (m ((c : Thread nD τ).loc main_arg3)) i := by
  have e : (V m c main_v2 : S4096x64.Idx → EReal)
      = (truncf .bf16 ((m ((c : Thread nD τ).loc main_arg3)) : FVec Ideal S4096x64 .f32) bitsLt_bf16_f32 : FVec Ideal S4096x64 .bf16) := by
    dsimp only [Gen.V, Gen.hostOps0]; after_results
  exact congrFun e i

/-- The second bias as staged: the argument cast to one row. -/
theorem staged_b2 (c : Dev nD) :
    (V m c main_v3 : S1x64.Idx → EReal) = shapeCast S1x64 (m ((c : Thread nD τ).loc main_arg4)) shapeCasts_S64_S1x64 := by
  dsimp only [Gen.V, Gen.hostOps0]; after_results; rfl

/-! ## What a point writes back -/

theorem origin : (![0, 0] : Fin 2 → Nat) = fun _ => 0 := funext fun a => by fin_cases a <;> rfl

/-- The printed index maps, decided over the 32 points: the token window and the result window are at block row `t`,
    every other block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is its block of `gates` of the arguments. -/
theorem flushed_eq (c : Dev nD) (t : Fin cfg0.N) :
    (dats m 0 c).flushed 5 t = ((cfg0.win 5).blk t).view.read (Elt Ideal) (gates (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5]
  unfold out0_5
  rw [View.canon_unit_zero origin]
  simp only [View.ld_unit_zero (S := S256x4096) origin, View.ld_unit_zero (S := S4096x4096) origin,
    View.ld_unit_zero (S := S1x4096) origin, View.ld_unit_zero (S := S4096x64) origin, View.ld_unit_zero (S := S1x64) origin]
  obtain ⟨e00, e01, e10, e11, e20, e21, e30, e31, e40, e41, e50, e51⟩ := index_facts t
  have ht : t.val < 32 := t.isLt
  refine funext fun (y : S256x64.Idx) => ?_
  obtain ⟨p, e, rfl⟩ : ∃ (p : Fin 256) (e : Fin 64), y = ix2 p e := ⟨y 0, y 1, eq_ix2 y⟩
  have hp : p.val < 256 := p.isLt
  show k0_pay1 (F := Ideal) (iblk m c 0 t) (iblk m c 1 t) (iblk m c 2 t) (iblk m c 3 t) (iblk m c 4 t) (ix2 p e)
    = gates (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 p e))
  have hemb : ((cfg0.win 5).blk t).view.emb (ix2 p e) = ix2 (⟨t.val * 256 + p.val, by omega⟩ : Fin 8192) e := by
    funext a; apply Fin.ext
    match a with
    | ⟨0, _⟩ => show win0_5.index t (0 : Fin 2) * 256 + 1 * p.val = t.val * 256 + p.val; omega
    | ⟨1, _⟩ => show win0_5.index t (1 : Fin 2) * 64 + 1 * e.val = e.val; omega
  rw [hemb]
  refine entry_eq (iblk m c 0 t) (iblk m c 1 t) (iblk m c 2 t) (iblk m c 3 t) (iblk m c 4 t) _ _ _ _ _ p _ e ?_ ?_ ?_ ?_ ?_
  · intro k
    show V m c main_arg0 (((cfg0.win 0).blk t).view.emb (ix2 p k)) = (m ((c : Thread nD τ).loc main_arg0)) (ix2 (⟨t.val * 256 + p.val, by omega⟩ : Fin 8192) k)
    rw [V_main_arg0]
    refine congrArg _ (funext fun a => Fin.ext ?_)
    match a with
    | ⟨0, _⟩ => show win0_0.index t (0 : Fin 2) * 256 + 1 * p.val = t.val * 256 + p.val; omega
    | ⟨1, _⟩ => show win0_0.index t (1 : Fin 2) * 4096 + 1 * k.val = k.val; omega
  · intro k j
    show V m c main_v0 (((cfg0.win 1).blk t).view.emb (ix2 k j)) = (m ((c : Thread nD τ).loc main_arg1)) (ix2 k j)
    rw [staged_W1]
    refine congrArg _ (funext fun a => Fin.ext ?_)
    match a with
    | ⟨0, _⟩ => show win0_1.index t (0 : Fin 2) * 4096 + 1 * k.val = k.val; omega
    | ⟨1, _⟩ => show win0_1.index t (1 : Fin 2) * 4096 + 1 * j.val = j.val; omega
  · intro j
    show V m c main_v1 (((cfg0.win 2).blk t).view.emb (ix2 (0 : Fin 1) j)) = (m ((c : Thread nD τ).loc main_arg2)) (ix1 j)
    rw [staged_b1]
    have hj : ((cfg0.win 2).blk t).view.emb (ix2 (0 : Fin 1) j) = ix2 (0 : Fin 1) j := by
      funext a; apply Fin.ext
      match a with
      | ⟨0, _⟩ => show win0_2.index t (0 : Fin 2) * 1 + 1 * 0 = 0; omega
      | ⟨1, _⟩ => show win0_2.index t (1 : Fin 2) * 4096 + 1 * j.val = j.val; omega
    rw [hj]
    exact shapeCast_a_1a_apply _ _ 0 j
  · intro j e'
    show V m c main_v2 (((cfg0.win 3).blk t).view.emb (ix2 j e')) = (m ((c : Thread nD τ).loc main_arg3)) (ix2 j e')
    rw [staged_W2]
    refine congrArg _ (funext fun a => Fin.ext ?_)
    match a with
    | ⟨0, _⟩ => show win0_3.index t (0 : Fin 2) * 4096 + 1 * j.val = j.val; omega
    | ⟨1, _⟩ => show win0_3.index t (1 : Fin 2) * 64 + 1 * e'.val = e'.val; omega
  · intro e'
    show V m c main_v3 (((cfg0.win 4).blk t).view.emb (ix2 (0 : Fin 1) e')) = (m ((c : Thread nD τ).loc main_arg4)) (ix1 e')
    rw [staged_b2]
    have hj : ((cfg0.win 4).blk t).view.emb (ix2 (0 : Fin 1) e') = ix2 (0 : Fin 1) e' := by
      funext a; apply Fin.ext
      match a with
      | ⟨0, _⟩ => show win0_4.index t (0 : Fin 2) * 1 + 1 * 0 = 0; omega
      | ⟨1, _⟩ => show win0_4.index t (1 : Fin 2) * 64 + 1 * e'.val = e'.val; omega
    rw [hj]
    exact shapeCast_a_1a_apply _ _ 0 e'

/-! ## The blocks cover the array -/

/-- An index of the result is in point `t`'s block iff each coordinate is in the block's range on its axis. -/
theorem mem_blk (t : Fin cfg0.N) (i : S8192x64.Idx) :
    i ∈ ((cfg0.win 5).blk t).view.set ↔ ∀ a : Fin 2, win0_5.index t a * S256x64.size a ≤ (i a).val ∧ (i a).val < win0_5.index t a * S256x64.size a + S256x64.size a := by
  show i ∈ ((View.whole main_v4).slice (win0_5.rect t)).set ↔ _
  rw [View.set_slice_whole, Rect.mem_set_unit]
  exact Iff.rfl

/-- Row `r` of the result lies in the block of point `r / 256`. -/
theorem cover (i : S8192x64.Idx) : ∃ t : Fin cfg0.N, (cfg0.win 5).flush t = true ∧ i ∈ ((cfg0.win 5).blk t).view.set := by
  have hi0 : (i 0).val < 8192 := (i 0).isLt
  have hi1 : (i 1).val < 64 := (i 1).isLt
  have hlt : (i 0).val / 256 < 32 := by omega
  obtain ⟨-, -, -, -, -, -, -, -, -, -, e50, e51⟩ := index_facts (⟨(i 0).val / 256, hlt⟩ : Fin cfg0.N)
  have e50' : win0_5.index (⟨(i 0).val / 256, hlt⟩ : Fin cfg0.N) (0 : Fin 2) = (i 0).val / 256 := e50
  refine ⟨⟨(i 0).val / 256, hlt⟩, flush0_5 _, ?_⟩
  rw [mem_blk]
  intro a
  match a with
  | ⟨0, _⟩ =>
    show win0_5.index (⟨(i 0).val / 256, hlt⟩ : Fin cfg0.N) (0 : Fin 2) * 256 ≤ (i 0).val ∧ (i 0).val < win0_5.index (⟨(i 0).val / 256, hlt⟩ : Fin cfg0.N) (0 : Fin 2) * 256 + 256
    omega
  | ⟨1, _⟩ =>
    show win0_5.index (⟨(i 0).val / 256, hlt⟩ : Fin cfg0.N) (1 : Fin 2) * 64 ≤ (i 1).val ∧ (i 1).val < win0_5.index (⟨(i 0).val / 256, hlt⟩ : Fin cfg0.N) (1 : Fin 2) * 64 + 64
    omega

/-! ## The array after the run, and the run -/

/-- The result array after the run is `gates` of the arguments. -/
theorem final (c : Dev nD) : (dats m 0 c).arrAt 5 cfg0.N = gates (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) cover

/-- Every weakly fair execution of the kernel's program terminates with the result array at `gates` of the arguments and
    the arguments unchanged. -/
theorem run : θ_run defs (onTc (τ := τ) (main (F := Ideal))) ⟨m, fun _ => 0, ρ⟩ fun r => ∀ c : Dev nD,
      r.2.mem ((c : Thread nD τ).loc main_v4) = gates (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelGates

end
-- ==== Proof.lean ====
/-
  A fused gating network against its reference: `softmax (relu (x · W1 + b1) · W2 + b2)` over 8192 tokens of 4096
  features, 4096 hidden units and 64 experts.

  The kernel runs one grid of 32 points, 256 tokens each; both weight matrices and both biases stay resident. Its body
  narrows the tokens and the weights to sixteen-bit floats before each matrix product; on the extended reals a change
  of float format is the identity, a product into a zero accumulator is the plain sum over the contraction
  coordinate, and a reduction over the experts is the sum or the maximum of the row's 64 entries, so an entry of the
  stored block is the gate of one expert for one token (Proof/KernelRow.lean), the 32 blocks tile the result
  (Proof/KernelGates.lean), and the result array is `Cert.Gates.gates` of the arguments (Proof/Gates.lean). The reference
  computes the same function with whole-array operations: two `dot_general`s, the clip at zero, and jax's softmax,
  which subtracts the row maximum after taking its maximum with −∞ once more, a step that changes nothing because −∞
  is the least extended real (Proof/RefGates.lean). Both runs therefore end at the same array, entry by entry, for
  every input, finite or not: the precondition is never opened.

  The kernel's idealization rewrote no operation, so `preserves` has nothing to state. The two kernel frames are the
  generated ones; the reference's frame is its generated run with the result dropped.
-/
import proofs.«142755_g21114059227169_cont_8to1_1984_6_alg».proof.Defs
import proofs.«142755_g21114059227169_cont_8to1_1984_6_alg».proof.Proof.Gen.Kernel
import proofs.«142755_g21114059227169_cont_8to1_1984_6_alg».proof.Proof.Gen.Kernel.Skeleton
import proofs.«142755_g21114059227169_cont_8to1_1984_6_alg».proof.Proof.Gen.Kernel.Launch
import proofs.«142755_g21114059227169_cont_8to1_1984_6_alg».proof.Proof.Gen.Kernel.Points
import proofs.«142755_g21114059227169_cont_8to1_1984_6_alg».proof.Proof.Gen.Kernel.Frame
import proofs.«142755_g21114059227169_cont_8to1_1984_6_alg».proof.Proof.Gen.KernelIdeal
import proofs.«142755_g21114059227169_cont_8to1_1984_6_alg».proof.Proof.Gen.KernelIdeal.Skeleton
import proofs.«142755_g21114059227169_cont_8to1_1984_6_alg».proof.Proof.Gen.KernelIdeal.Launch
import proofs.«142755_g21114059227169_cont_8to1_1984_6_alg».proof.Proof.Gen.KernelIdeal.Points
import proofs.«142755_g21114059227169_cont_8to1_1984_6_alg».proof.Proof.Gen.KernelIdeal.Frame
import proofs.«142755_g21114059227169_cont_8to1_1984_6_alg».proof.Proof.Gen.ReferenceIdeal
import proofs.«142755_g21114059227169_cont_8to1_1984_6_alg».proof.Proof.Gen.Pre_finite_inputs
import proofs.«142755_g21114059227169_cont_8to1_1984_6_alg».proof.Proof.Gen.KernelIdeal.Value
import proofs.«142755_g21114059227169_cont_8to1_1984_6_alg».proof.Proof.Gen.ReferenceIdeal.Run
import proofs.«142755_g21114059227169_cont_8to1_1984_6_alg».proof.Proof.Gen.ReferenceIdeal.Read
import proofs.«142755_g21114059227169_cont_8to1_1984_6_alg».proof.Proof.Gates
import proofs.«142755_g21114059227169_cont_8to1_1984_6_alg».proof.Proof.RefGates
import proofs.«142755_g21114059227169_cont_8to1_1984_6_alg».proof.Proof.KernelGates
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both programs end with the result array at `gates` of the arguments:
    the kernel block by block, the reference stage by stage. -/
theorem algebraic : Cert.algebraic_KernelIdeal_ReferenceIdeal := by
  intro m ρ m' ρ' _ hagree
  refine ⟨fun c => Cert.Gates.gates (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KernelGates.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefGates.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
